-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x260x260 : Shape := ⟨4, ![8, 64, 260, 260]⟩
abbrev S8x25x256x256 : Shape := ⟨4, ![8, 25, 256, 256]⟩
abbrev S_ : Shape := ⟨0, ![]⟩

class Facts : Prop where
  bcast_S_S8x64x260x260 : S_.BroadcastsInDim S8x64x260x260 (![] : Fin 0 → Fin S8x64x260x260.rank)
  reducesTo_S8x64x260x260_S_d0_1_2_3 : S8x64x260x260.ReducesTo [0, 1, 2, 3] S_
  h_S_ : 0 < S_.numel
  bcast_S_S8x25x256x256 : S_.BroadcastsInDim S8x25x256x256 (![] : Fin 0 → Fin S8x25x256x256.rank)
  reducesTo_S8x25x256x256_S_d0_1_2_3 : S8x25x256x256.ReducesTo [0, 1, 2, 3] S_

variable [Facts]

def fn {F : FTy → Type} [FloatOps F] (main_arg0 : FVec F S8x64x260x260 .f32) (main_arg1 : FVec F S8x25x256x256 .f32) : IVec S_ 1 :=
  let main_v0 : FVec F S8x64x260x260 .f32 := Host.absf main_arg0
  let main_cst : FVec F S_ .f32 := constant S_ .f32 0x7F800000#32
  let main_v1 : FVec F S8x64x260x260 .f32 := broadcastInDim S8x64x260x260 ![] bcast_S_S8x64x260x260 main_cst
  let main_v2 : IVec S8x64x260x260 1 := cmpf .olt main_v0 main_v1
  let main_c : IVec S_ 1 := constantI S_ 1 1#1
  let main_v3 : IVec S_ 1 := (fun x v => Host.reduce IntOp.andi x v reducesTo_S8x64x260x260_S_d0_1_2_3 h_S_) main_v2 main_c
  let main_v4 : FVec F S8x25x256x256 .f32 := Host.absf main_arg1
  let main_cst_0 : FVec F S_ .f32 := constant S_ .f32 0x7F800000#32
  let main_v5 : FVec F S8x25x256x256 .f32 := broadcastInDim S8x25x256x256 ![] bcast_S_S8x25x256x256 main_cst_0
  let main_v6 : IVec S8x25x256x256 1 := cmpf .olt main_v4 main_v5
  let main_c_1 : IVec S_ 1 := constantI S_ 1 1#1
  let main_v7 : IVec S_ 1 := (fun x v => Host.reduce IntOp.andi x v reducesTo_S8x25x256x256_S_d0_1_2_3 h_S_) main_v6 main_c_1
  let main_v8 : IVec S_ 1 := andi main_v3 main_v7
  main_v8
-- ==== Kernel.lean ====
abbrev S8x64x260x260 : Shape := ⟨4, ![8, 64, 260, 260]⟩
abbrev S8x25x256x256 : Shape := ⟨4, ![8, 25, 256, 256]⟩
abbrev S8x64x256x256 : Shape := ⟨4, ![8, 64, 256, 256]⟩
abbrev S1x16x260x260 : Shape := ⟨4, ![1, 16, 260, 260]⟩
abbrev S1x25x256x256 : Shape := ⟨4, ![1, 25, 256, 256]⟩
abbrev S1x16x256x256 : Shape := ⟨4, ![1, 16, 256, 256]⟩
abbrev S16x256x256 : Shape := ⟨3, ![16, 256, 256]⟩
abbrev S1x1x256x256 : Shape := ⟨4, ![1, 1, 256, 256]⟩
abbrev S256x256 : Shape := ⟨2, ![256, 256]⟩
abbrev S1x256x256 : Shape := ⟨3, ![1, 256, 256]⟩

abbrev nBuf : Space → Nat
  | .hbm => 3
  | .vmem => 5
  | .smem => 0
  | _ => 0

abbrev bufTy : (tb : Table) → Fin (tcTables nBuf tb) → BufTy
  | .hbm, ⟨0, _⟩ => ⟨S8x64x260x260, .f32⟩
  | .hbm, ⟨1, _⟩ => ⟨S8x25x256x256, .f32⟩
  | .hbm, ⟨2, _⟩ => ⟨S8x64x256x256, .f32⟩
  | .local _ .vmem, ⟨0, _⟩ => ⟨S1x16x260x260, .f32⟩
  | .local _ .vmem, ⟨1, _⟩ => ⟨S1x16x260x260, .f32⟩
  | .local _ .vmem, ⟨2, _⟩ => ⟨S1x25x256x256, .f32⟩
  | .local _ .vmem, ⟨3, _⟩ => ⟨S1x16x256x256, .f32⟩
  | .local _ .vmem, ⟨4, _⟩ => ⟨S1x16x256x256, .f32⟩
  | _, _ => ⟨S8x64x260x260, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x260x260 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x25x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x16x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x16x260x260_S1x16x256x256_0_0_0_0 : ∀ a, (![0, 0, 0, 0] : Fin 4 → Nat) a + S1x16x256x256.size a ≤ S1x16x260x260.size a
  h_S1x16x256x256 : 0 < S1x16x256x256.numel
  shapeCasts_S1x16x256x256_S16x256x256 : S1x16x256x256.ShapeCasts S16x256x256
  inb_S1x25x256x256_S1x1x256x256_0_0_0_0 : ∀ a, (![0, 0, 0, 0] : Fin 4 → Nat) a + S1x1x256x256.size a ≤ S1x25x256x256.size a
  h_S1x1x256x256 : 0 < S1x1x256x256.numel
  shapeCasts_S1x1x256x256_S256x256 : S1x1x256x256.ShapeCasts S256x256
  shapeCasts_S256x256_S1x256x256 : S256x256.ShapeCasts S1x256x256
  broadcasts_S1x256x256_S16x256x256 : S1x256x256.Broadcasts S16x256x256
  inb_S1x16x260x260_S1x16x256x256_0_0_0_1 : ∀ a, (![0, 0, 0, 1] : Fin 4 → Nat) a + S1x16x256x256.size a ≤ S1x16x260x260.size a
  inb_S1x25x256x256_S1x1x256x256_0_1_0_0 : ∀ a, (![0, 1, 0, 0] : Fin 4 → Nat) a + S1x1x256x256.size a ≤ S1x25x256x256.size a
  inb_S1x16x260x260_S1x16x256x256_0_0_0_2 : ∀ a, (![0, 0, 0, 2] : Fin 4 → Nat) a + S1x16x256x256.size a ≤ S1x16x260x260.size a
  inb_S1x25x256x256_S1x1x256x256_0_2_0_0 : ∀ a, (![0, 2, 0, 0] : Fin 4 → Nat) a + S1x1x256x256.size a ≤ S1x25x256x256.size a
  inb_S1x16x260x260_S1x16x256x256_0_0_0_3 : ∀ a, (![0, 0, 0, 3] : Fin 4 → Nat) a + S1x16x256x256.size a ≤ S1x16x260x260.size a
  inb_S1x25x256x256_S1x1x256x256_0_3_0_0 : ∀ a, (![0, 3, 0, 0] : Fin 4 → Nat) a + S1x1x256x256.size a ≤ S1x25x256x256.size a
  inb_S1x16x260x260_S1x16x256x256_0_0_0_4 : ∀ a, (![0, 0, 0, 4] : Fin 4 → Nat) a + S1x16x256x256.size a ≤ S1x16x260x260.size a
  inb_S1x25x256x256_S1x1x256x256_0_4_0_0 : ∀ a, (![0, 4, 0, 0] : Fin 4 → Nat) a + S1x1x256x256.size a ≤ S1x25x256x256.size a
  inb_S1x16x260x260_S1x16x256x256_0_0_1_0 : ∀ a, (![0, 0, 1, 0] : Fin 4 → Nat) a + S1x16x256x256.size a ≤ S1x16x260x260.size a
  inb_S1x25x256x256_S1x1x256x256_0_5_0_0 : ∀ a, (![0, 5, 0, 0] : Fin 4 → Nat) a + S1x1x256x256.size a ≤ S1x25x256x256.size a
  inb_S1x16x260x260_S1x16x256x256_0_0_1_1 : ∀ a, (![0, 0, 1, 1] : Fin 4 → Nat) a + S1x16x256x256.size a ≤ S1x16x260x260.size a
  inb_S1x25x256x256_S1x1x256x256_0_6_0_0 : ∀ a, (![0, 6, 0, 0] : Fin 4 → Nat) a + S1x1x256x256.size a ≤ S1x25x256x256.size a
  inb_S1x16x260x260_S1x16x256x256_0_0_1_2 : ∀ a, (![0, 0, 1, 2] : Fin 4 → Nat) a + S1x16x256x256.size a ≤ S1x16x260x260.size a
  inb_S1x25x256x256_S1x1x256x256_0_7_0_0 : ∀ a, (![0, 7, 0, 0] : Fin 4 → Nat) a + S1x1x256x256.size a ≤ S1x25x256x256.size a
  inb_S1x16x260x260_S1x16x256x256_0_0_1_3 : ∀ a, (![0, 0, 1, 3] : Fin 4 → Nat) a + S1x16x256x256.size a ≤ S1x16x260x260.size a
  inb_S1x25x256x256_S1x1x256x256_0_8_0_0 : ∀ a, (![0, 8, 0, 0] : Fin 4 → Nat) a + S1x1x256x256.size a ≤ S1x25x256x256.size a
  inb_S1x16x260x260_S1x16x256x256_0_0_1_4 : ∀ a, (![0, 0, 1, 4] : Fin 4 → Nat) a + S1x16x256x256.size a ≤ S1x16x260x260.size a
  inb_S1x25x256x256_S1x1x256x256_0_9_0_0 : ∀ a, (![0, 9, 0, 0] : Fin 4 → Nat) a + S1x1x256x256.size a ≤ S1x25x256x256.size a
  inb_S1x16x260x260_S1x16x256x256_0_0_2_0 : ∀ a, (![0, 0, 2, 0] : Fin 4 → Nat) a + S1x16x256x256.size a ≤ S1x16x260x260.size a
  inb_S1x25x256x256_S1x1x256x256_0_10_0_0 : ∀ a, (![0, 10, 0, 0] : Fin 4 → Nat) a + S1x1x256x256.size a ≤ S1x25x256x256.size a
  inb_S1x16x260x260_S1x16x256x256_0_0_2_1 : ∀ a, (![0, 0, 2, 1] : Fin 4 → Nat) a + S1x16x256x256.size a ≤ S1x16x260x260.size a
  inb_S1x25x256x256_S1x1x256x256_0_11_0_0 : ∀ a, (![0, 11, 0, 0] : Fin 4 → Nat) a + S1x1x256x256.size a ≤ S1x25x256x256.size a
  inb_S1x16x260x260_S1x16x256x256_0_0_2_2 : ∀ a, (![0, 0, 2, 2] : Fin 4 → Nat) a + S1x16x256x256.size a ≤ S1x16x260x260.size a
  inb_S1x25x256x256_S1x1x256x256_0_12_0_0 : ∀ a, (![0, 12, 0, 0] : Fin 4 → Nat) a + S1x1x256x256.size a ≤ S1x25x256x256.size a
  inb_S1x16x260x260_S1x16x256x256_0_0_2_3 : ∀ a, (![0, 0, 2, 3] : Fin 4 → Nat) a + S1x16x256x256.size a ≤ S1x16x260x260.size a
  inb_S1x25x256x256_S1x1x256x256_0_13_0_0 : ∀ a, (![0, 13, 0, 0] : Fin 4 → Nat) a + S1x1x256x256.size a ≤ S1x25x256x256.size a
  inb_S1x16x260x260_S1x16x256x256_0_0_2_4 : ∀ a, (![0, 0, 2, 4] : Fin 4 → Nat) a + S1x16x256x256.size a ≤ S1x16x260x260.size a
  inb_S1x25x256x256_S1x1x256x256_0_14_0_0 : ∀ a, (![0, 14, 0, 0] : Fin 4 → Nat) a + S1x1x256x256.size a ≤ S1x25x256x256.size a
  inb_S1x16x260x260_S1x16x256x256_0_0_3_0 : ∀ a, (![0, 0, 3, 0] : Fin 4 → Nat) a + S1x16x256x256.size a ≤ S1x16x260x260.size a
  inb_S1x25x256x256_S1x1x256x256_0_15_0_0 : ∀ a, (![0, 15, 0, 0] : Fin 4 → Nat) a + S1x1x256x256.size a ≤ S1x25x256x256.size a
  inb_S1x16x260x260_S1x16x256x256_0_0_3_1 : ∀ a, (![0, 0, 3, 1] : Fin 4 → Nat) a + S1x16x256x256.size a ≤ S1x16x260x260.size a
  inb_S1x25x256x256_S1x1x256x256_0_16_0_0 : ∀ a, (![0, 16, 0, 0] : Fin 4 → Nat) a + S1x1x256x256.size a ≤ S1x25x256x256.size a
  inb_S1x16x260x260_S1x16x256x256_0_0_3_2 : ∀ a, (![0, 0, 3, 2] : Fin 4 → Nat) a + S1x16x256x256.size a ≤ S1x16x260x260.size a
  inb_S1x25x256x256_S1x1x256x256_0_17_0_0 : ∀ a, (![0, 17, 0, 0] : Fin 4 → Nat) a + S1x1x256x256.size a ≤ S1x25x256x256.size a
  inb_S1x16x260x260_S1x16x256x256_0_0_3_3 : ∀ a, (![0, 0, 3, 3] : Fin 4 → Nat) a + S1x16x256x256.size a ≤ S1x16x260x260.size a
  inb_S1x25x256x256_S1x1x256x256_0_18_0_0 : ∀ a, (![0, 18, 0, 0] : Fin 4 → Nat) a + S1x1x256x256.size a ≤ S1x25x256x256.size a
  inb_S1x16x260x260_S1x16x256x256_0_0_3_4 : ∀ a, (![0, 0, 3, 4] : Fin 4 → Nat) a + S1x16x256x256.size a ≤ S1x16x260x260.size a
  inb_S1x25x256x256_S1x1x256x256_0_19_0_0 : ∀ a, (![0, 19, 0, 0] : Fin 4 → Nat) a + S1x1x256x256.size a ≤ S1x25x256x256.size a
  inb_S1x16x260x260_S1x16x256x256_0_0_4_0 : ∀ a, (![0, 0, 4, 0] : Fin 4 → Nat) a + S1x16x256x256.size a ≤ S1x16x260x260.size a
  inb_S1x25x256x256_S1x1x256x256_0_20_0_0 : ∀ a, (![0, 20, 0, 0] : Fin 4 → Nat) a + S1x1x256x256.size a ≤ S1x25x256x256.size a
  inb_S1x16x260x260_S1x16x256x256_0_0_4_1 : ∀ a, (![0, 0, 4, 1] : Fin 4 → Nat) a + S1x16x256x256.size a ≤ S1x16x260x260.size a
  inb_S1x25x256x256_S1x1x256x256_0_21_0_0 : ∀ a, (![0, 21, 0, 0] : Fin 4 → Nat) a + S1x1x256x256.size a ≤ S1x25x256x256.size a
  inb_S1x16x260x260_S1x16x256x256_0_0_4_2 : ∀ a, (![0, 0, 4, 2] : Fin 4 → Nat) a + S1x16x256x256.size a ≤ S1x16x260x260.size a
  inb_S1x25x256x256_S1x1x256x256_0_22_0_0 : ∀ a, (![0, 22, 0, 0] : Fin 4 → Nat) a + S1x1x256x256.size a ≤ S1x25x256x256.size a
  inb_S1x16x260x260_S1x16x256x256_0_0_4_3 : ∀ a, (![0, 0, 4, 3] : Fin 4 → Nat) a + S1x16x256x256.size a ≤ S1x16x260x260.size a
  inb_S1x25x256x256_S1x1x256x256_0_23_0_0 : ∀ a, (![0, 23, 0, 0] : Fin 4 → Nat) a + S1x1x256x256.size a ≤ S1x25x256x256.size a
  inb_S1x16x260x260_S1x16x256x256_0_0_4_4 : ∀ a, (![0, 0, 4, 4] : Fin 4 → Nat) a + S1x16x256x256.size a ≤ S1x16x260x260.size a
  inb_S1x25x256x256_S1x1x256x256_0_24_0_0 : ∀ a, (![0, 24, 0, 0] : Fin 4 → Nat) a + S1x1x256x256.size a ≤ S1x25x256x256.size a
  inb_S1x16x256x256_S1x16x256x256_0_0_0_0 : ∀ a, (![0, 0, 0, 0] : Fin 4 → Nat) a + S1x16x256x256.size a ≤ S1x16x256x256.size a
  shapeCasts_S16x256x256_S1x16x256x256 : S16x256x256.ShapeCasts S1x16x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x260x260.size a ≤ S8x64x260x260.size a
  hwx0_0 : ∀ i : grid0.Coords, EltTy.bits .f32 = 32 ∨ (Rect.block (s := S8x64x260x260) S1x16x260x260.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x25x256x256.size a ≤ S8x25x256x256.size a
  hwx0_1 : ∀ i : grid0.Coords, EltTy.bits .f32 = 32 ∨ (Rect.block (s := S8x25x256x256) S1x25x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x256x256.size a ≤ S8x64x256x256.size a
  hwx0_2 : ∀ i : grid0.Coords, EltTy.bits .f32 = 32 ∨ (Rect.block (s := S8x64x256x256) S1x16x256x256.size (cc0_transform_2 i) (hinb0_2 i)).WholeWords (EltTy.packing .f32)

variable [Facts₀]

abbrev win0_0 : Pipeline.Window sig grid0 :=
  Pipeline.Window.ofSpec (Memref.whole main_arg0) S1x16x260x260.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x25x256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x260x260 : Shape := ⟨4, ![8, 64, 260, 260]⟩
abbrev S8x25x256x256 : Shape := ⟨4, ![8, 25, 256, 256]⟩
abbrev S_ : Shape := ⟨0, ![]⟩
abbrev S8x64x256x256 : Shape := ⟨4, ![8, 64, 256, 256]⟩
abbrev S8x1x256x256 : Shape := ⟨4, ![8, 1, 256, 256]⟩
abbrev S8x256x256 : Shape := ⟨3, ![8, 256, 256]⟩

abbrev nBuf : Space → Nat
  | .hbm => 179
  | .vmem => 0
  | .smem => 0
  | _ => 0

abbrev hbmTy0_0 (i : Nat) : BufTy := match i % 128 with
  | 0 => ⟨S8x64x260x260, .f32⟩
  | 1 => ⟨S8x25x256x256, .f32⟩
  | 2 => ⟨S_, .f32⟩
  | 3 => ⟨S8x64x256x256, .f32⟩
  | 4 => ⟨S8x64x256x256, .f32⟩
  | 5 => ⟨S8x1x256x256, .f32⟩
  | 6 => ⟨S8x256x256, .f32⟩
  | 7 => ⟨S8x1x256x256, .f32⟩
  | 8 => ⟨S8x64x256x256, .f32⟩
  | 9 => ⟨S8x64x256x256, .f32⟩
  | 10 => ⟨S8x64x256x256, .f32⟩
  | 11 => ⟨S8x64x256x256, .f32⟩
  | 12 => ⟨S8x1x256x256, .f32⟩
  | 13 => ⟨S8x256x256, .f32⟩
  | 14 => ⟨S8x1x256x256, .f32⟩
  | 15 => ⟨S8x64x256x256, .f32⟩
  | 16 => ⟨S8x64x256x256, .f32⟩
  | 17 => ⟨S8x64x256x256, .f32⟩
  | 18 => ⟨S8x64x256x256, .f32⟩
  | 19 => ⟨S8x1x256x256, .f32⟩
  | 20 => ⟨S8x256x256, .f32⟩
  | 21 => ⟨S8x1x256x256, .f32⟩
  | 22 => ⟨S8x64x256x256, .f32⟩
  | 23 => ⟨S8x64x256x256, .f32⟩
  | 24 => ⟨S8x64x256x256, .f32⟩
  | 25 => ⟨S8x64x256x256, .f32⟩
  | 26 => ⟨S8x1x256x256, .f32⟩
  | 27 => ⟨S8x256x256, .f32⟩
  | 28 => ⟨S8x1x256x256, .f32⟩
  | 29 => ⟨S8x64x256x256, .f32⟩
  | 30 => ⟨S8x64x256x256, .f32⟩
  | 31 => ⟨S8x64x256x256, .f32⟩
  | 32 => ⟨S8x64x256x256, .f32⟩
  | 33 => ⟨S8x1x256x256, .f32⟩
  | 34 => ⟨S8x256x256, .f32⟩
  | 35 => ⟨S8x1x256x256, .f32⟩
  | 36 => ⟨S8x64x256x256, .f32⟩
  | 37 => ⟨S8x64x256x256, .f32⟩
  | 38 => ⟨S8x64x256x256, .f32⟩
  | 39 => ⟨S8x64x256x256, .f32⟩
  | 40 => ⟨S8x1x256x256, .f32⟩
  | 41 => ⟨S8x256x256, .f32⟩
  | 42 => ⟨S8x1x256x256, .f32⟩
  | 43 => ⟨S8x64x256x256, .f32⟩
  | 44 => ⟨S8x64x256x256, .f32⟩
  | 45 => ⟨S8x64x256x256, .f32⟩
  | 46 => ⟨S8x64x256x256, .f32⟩
  | 47 => ⟨S8x1x256x256, .f32⟩
  | 48 => ⟨S8x256x256, .f32⟩
  | 49 => ⟨S8x1x256x256, .f32⟩
  | 50 => ⟨S8x64x256x256, .f32⟩
  | 51 => ⟨S8x64x256x256, .f32⟩
  | 52 => ⟨S8x64x256x256, .f32⟩
  | 53 => ⟨S8x64x256x256, .f32⟩
  | 54 => ⟨S8x1x256x256, .f32⟩
  | 55 => ⟨S8x256x256, .f32⟩
  | 56 => ⟨S8x1x256x256, .f32⟩
  | 57 => ⟨S8x64x256x256, .f32⟩
  | 58 => ⟨S8x64x256x256, .f32⟩
  | 59 => ⟨S8x64x256x256, .f32⟩
  | 60 => ⟨S8x64x256x256, .f32⟩
  | 61 => ⟨S8x1x256x256, .f32⟩
  | 62 => ⟨S8x256x256, .f32⟩
  | 63 => ⟨S8x1x256x256, .f32⟩
  | 64 => ⟨S8x64x256x256, .f32⟩
  | 65 => ⟨S8x64x256x256, .f32⟩
  | 66 => ⟨S8x64x256x256, .f32⟩
  | 67 => ⟨S8x64x256x256, .f32⟩
  | 68 => ⟨S8x1x256x256, .f32⟩
  | 69 => ⟨S8x256x256, .f32⟩
  | 70 => ⟨S8x1x256x256, .f32⟩
  | 71 => ⟨S8x64x256x256, .f32⟩
  | 72 => ⟨S8x64x256x256, .f32⟩
  | 73 => ⟨S8x64x256x256, .f32⟩
  | 74 => ⟨S8x64x256x256, .f32⟩
  | 75 => ⟨S8x1x256x256, .f32⟩
  | 76 => ⟨S8x256x256, .f32⟩
  | 77 => ⟨S8x1x256x256, .f32⟩
  | 78 => ⟨S8x64x256x256, .f32⟩
  | 79 => ⟨S8x64x256x256, .f32⟩
  | 80 => ⟨S8x64x256x256, .f32⟩
  | 81 => ⟨S8x64x256x256, .f32⟩
  | 82 => ⟨S8x1x256x256, .f32⟩
  | 83 => ⟨S8x256x256, .f32⟩
  | 84 => ⟨S8x1x256x256, .f32⟩
  | 85 => ⟨S8x64x256x256, .f32⟩
  | 86 => ⟨S8x64x256x256, .f32⟩
  | 87 => ⟨S8x64x256x256, .f32⟩
  | 88 => ⟨S8x64x256x256, .f32⟩
  | 89 => ⟨S8x1x256x256, .f32⟩
  | 90 => ⟨S8x256x256, .f32⟩
  | 91 => ⟨S8x1x256x256, .f32⟩
  | 92 => ⟨S8x64x256x256, .f32⟩
  | 93 => ⟨S8x64x256x256, .f32⟩
  | 94 => ⟨S8x64x256x256, .f32⟩
  | 95 => ⟨S8x64x256x256, .f32⟩
  | 96 => ⟨S8x1x256x256, .f32⟩
  | 97 => ⟨S8x256x256, .f32⟩
  | 98 => ⟨S8x1x256x256, .f32⟩
  | 99 => ⟨S8x64x256x256, .f32⟩
  | 100 => ⟨S8x64x256x256, .f32⟩
  | 101 => ⟨S8x64x256x256, .f32⟩
  | 102 => ⟨S8x64x256x256, .f32⟩
  | 103 => ⟨S8x1x256x256, .f32⟩
  | 104 => ⟨S8x256x256, .f32⟩
  | 105 => ⟨S8x1x256x256, .f32⟩
  | 106 => ⟨S8x64x256x256, .f32⟩
  | 107 => ⟨S8x64x256x256, .f32⟩
  | 108 => ⟨S8x64x256x256, .f32⟩
  | 109 => ⟨S8x64x256x256, .f32⟩
  | 110 => ⟨S8x1x256x256, .f32⟩
  | 111 => ⟨S8x256x256, .f32⟩
  | 112 => ⟨S8x1x256x256, .f32⟩
  | 113 => ⟨S8x64x256x256, .f32⟩
  | 114 => ⟨S8x64x256x256, .f32⟩
  | 115 => ⟨S8x64x256x256, .f32⟩
  | 116 => ⟨S8x64x256x256, .f32⟩
  | 117 => ⟨S8x1x256x256, .f32⟩
  | 118 => ⟨S8x256x256, .f32⟩
  | 119 => ⟨S8x1x256x256, .f32⟩
  | 120 => ⟨S8x64x256x256, .f32⟩
  | 121 => ⟨S8x64x256x256, .f32⟩
  | 122 => ⟨S8x64x256x256, .f32⟩
  | 123 => ⟨S8x64x256x256, .f32⟩
  | 124 => ⟨S8x1x256x256, .f32⟩
  | 125 => ⟨S8x256x256, .f32⟩
  | 126 => ⟨S8x1x256x256, .f32⟩
  | 127 => ⟨S8x64x256x256, .f32⟩
  | _ => ⟨S8x64x260x260, .f32⟩

abbrev hbmTy0_1 (i : Nat) : BufTy := match i % 128 with
  | 0 => ⟨S8x64x256x256, .f32⟩
  | 1 => ⟨S8x64x256x256, .f32⟩
  | 2 => ⟨S8x64x256x256, .f32⟩
  | 3 => ⟨S8x1x256x256, .f32⟩
  | 4 => ⟨S8x256x256, .f32⟩
  | 5 => ⟨S8x1x256x256, .f32⟩
  | 6 => ⟨S8x64x256x256, .f32⟩
  | 7 => ⟨S8x64x256x256, .f32⟩
  | 8 => ⟨S8x64x256x256, .f32⟩
  | 9 => ⟨S8x64x256x256, .f32⟩
  | 10 => ⟨S8x1x256x256, .f32⟩
  | 11 => ⟨S8x256x256, .f32⟩
  | 12 => ⟨S8x1x256x256, .f32⟩
  | 13 => ⟨S8x64x256x256, .f32⟩
  | 14 => ⟨S8x64x256x256, .f32⟩
  | 15 => ⟨S8x64x256x256, .f32⟩
  | 16 => ⟨S8x64x256x256, .f32⟩
  | 17 => ⟨S8x1x256x256, .f32⟩
  | 18 => ⟨S8x256x256, .f32⟩
  | 19 => ⟨S8x1x256x256, .f32⟩
  | 20 => ⟨S8x64x256x256, .f32⟩
  | 21 => ⟨S8x64x256x256, .f32⟩
  | 22 => ⟨S8x64x256x256, .f32⟩
  | 23 => ⟨S8x64x256x256, .f32⟩
  | 24 => ⟨S8x1x256x256, .f32⟩
  | 25 => ⟨S8x256x256, .f32⟩
  | 26 => ⟨S8x1x256x256, .f32⟩
  | 27 => ⟨S8x64x256x256, .f32⟩
  | 28 => ⟨S8x64x256x256, .f32⟩
  | 29 => ⟨S8x64x256x256, .f32⟩
  | 30 => ⟨S8x64x256x256, .f32⟩
  | 31 => ⟨S8x1x256x256, .f32⟩
  | 32 => ⟨S8x256x256, .f32⟩
  | 33 => ⟨S8x1x256x256, .f32⟩
  | 34 => ⟨S8x64x256x256, .f32⟩
  | 35 => ⟨S8x64x256x256, .f32⟩
  | 36 => ⟨S8x64x256x256, .f32⟩
  | 37 => ⟨S8x64x256x256, .f32⟩
  | 38 => ⟨S8x1x256x256, .f32⟩
  | 39 => ⟨S8x256x256, .f32⟩
  | 40 => ⟨S8x1x256x256, .f32⟩
  | 41 => ⟨S8x64x256x256, .f32⟩
  | 42 => ⟨S8x64x256x256, .f32⟩
  | 43 => ⟨S8x64x256x256, .f32⟩
  | 44 => ⟨S8x64x256x256, .f32⟩
  | 45 => ⟨S8x1x256x256, .f32⟩
  | 46 => ⟨S8x256x256, .f32⟩
  | 47 => ⟨S8x1x256x256, .f32⟩
  | 48 => ⟨S8x64x256x256, .f32⟩
  | 49 => ⟨S8x64x256x256, .f32⟩
  | 50 => ⟨S8x64x256x256, .f32⟩
  | _ => ⟨S8x64x260x260, .f32⟩

abbrev hbmTy (i : Nat) : BufTy := match i / 128 with
  | 0 => hbmTy0_0 i
  | 1 => hbmTy0_1 i
  | _ => ⟨S8x64x260x260, .f32⟩

abbrev bufTy : (tb : Table) → Fin (tcTables nBuf tb) → BufTy
  | .hbm, ⟨i, _⟩ => hbmTy i
  | _, _ => ⟨S8x64x260x260, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_v123 : Ref sig .tc := ⟨.hbm, 126, rfl⟩
abbrev main_v124 : Ref sig .tc := ⟨.hbm, 127, rfl⟩
abbrev main_v125 : Ref sig .tc := ⟨.hbm, 128, rfl⟩
abbrev main_v126 : Ref sig .tc := ⟨.hbm, 129, rfl⟩
abbrev main_v127 : Ref sig .tc := ⟨.hbm, 130, rfl⟩
abbrev main_v128 : Ref sig .tc := ⟨.hbm, 131, rfl⟩
abbrev main_v129 : Ref sig .tc := ⟨.hbm, 132, rfl⟩
abbrev main_v130 : Ref sig .tc := ⟨.hbm, 133, rfl⟩
abbrev main_v131 : Ref sig .tc := ⟨.hbm, 134, rfl⟩
abbrev main_v132 : Ref sig .tc := ⟨.hbm, 135, rfl⟩
abbrev main_v133 : Ref sig .tc := ⟨.hbm, 136, rfl⟩
abbrev main_v134 : Ref sig .tc := ⟨.hbm, 137, rfl⟩
abbrev main_v135 : Ref sig .tc := ⟨.hbm, 138, rfl⟩
abbrev main_v136 : Ref sig .tc := ⟨.hbm, 139, rfl⟩
abbrev main_v137 : Ref sig .tc := ⟨.hbm, 140, rfl⟩
abbrev main_v138 : Ref sig .tc := ⟨.hbm, 141, rfl⟩
abbrev main_v139 : Ref sig .tc := ⟨.hbm, 142, rfl⟩
abbrev main_v140 : Ref sig .tc := ⟨.hbm, 143, rfl⟩
abbrev main_v141 : Ref sig .tc := ⟨.hbm, 144, rfl⟩
abbrev main_v142 : Ref sig .tc := ⟨.hbm, 145, rfl⟩
abbrev main_v143 : Ref sig .tc := ⟨.hbm, 146, rfl⟩
abbrev main_v144 : Ref sig .tc := ⟨.hbm, 147, rfl⟩
abbrev main_v145 : Ref sig .tc := ⟨.hbm, 148, rfl⟩
abbrev main_v146 : Ref sig .tc := ⟨.hbm, 149, rfl⟩
abbrev main_v147 : Ref sig .tc := ⟨.hbm, 150, rfl⟩
abbrev main_v148 : Ref sig .tc := ⟨.hbm, 151, rfl⟩
abbrev main_v149 : Ref sig .tc := ⟨.hbm, 152, rfl⟩
abbrev main_v150 : Ref sig .tc := ⟨.hbm, 153, rfl⟩
abbrev main_v151 : Ref sig .tc := ⟨.hbm, 154, rfl⟩
abbrev main_v152 : Ref sig .tc := ⟨.hbm, 155, rfl⟩
abbrev main_v153 : Ref sig .tc := ⟨.hbm, 156, rfl⟩
abbrev main_v154 : Ref sig .tc := ⟨.hbm, 157, rfl⟩
abbrev main_v155 : Ref sig .tc := ⟨.hbm, 158, rfl⟩
abbrev main_v156 : Ref sig .tc := ⟨.hbm, 159, rfl⟩
abbrev main_v157 : Ref sig .tc := ⟨.hbm, 160, rfl⟩
abbrev main_v158 : Ref sig .tc := ⟨.hbm, 161, rfl⟩
abbrev main_v159 : Ref sig .tc := ⟨.hbm, 162, rfl⟩
abbrev main_v160 : Ref sig .tc := ⟨.hbm, 163, rfl⟩
abbrev main_v161 : Ref sig .tc := ⟨.hbm, 164, rfl⟩
abbrev main_v162 : Ref sig .tc := ⟨.hbm, 165, rfl⟩
abbrev main_v163 : Ref sig .tc := ⟨.hbm, 166, rfl⟩
abbrev main_v164 : Ref sig .tc := ⟨.hbm, 167, rfl⟩
abbrev main_v165 : Ref sig .tc := ⟨.hbm, 168, rfl⟩
abbrev main_v166 : Ref sig .tc := ⟨.hbm, 169, rfl⟩
abbrev main_v167 : Ref sig .tc := ⟨.hbm, 170, rfl⟩
abbrev main_v168 : Ref sig .tc := ⟨.hbm, 171, rfl⟩
abbrev main_v169 : Ref sig .tc := ⟨.hbm, 172, rfl⟩
abbrev main_v170 : Ref sig .tc := ⟨.hbm, 173, rfl⟩
abbrev main_v171 : Ref sig .tc := ⟨.hbm, 174, rfl⟩
abbrev main_v172 : Ref sig .tc := ⟨.hbm, 175, rfl⟩
abbrev main_v173 : Ref sig .tc := ⟨.hbm, 176, rfl⟩
abbrev main_v174 : Ref sig .tc := ⟨.hbm, 177, rfl⟩
abbrev main_v175 : Ref sig .tc := ⟨.hbm, 178, rfl⟩

abbrev nD : Nat := 1
abbrev τ : Topo := Topo.v7x

variable {F : FTy → Type} [FloatOps F]

class Facts₀ : Prop where
  bcast_S_S8x64x256x256 : S_.BroadcastsInDim S8x64x256x256 (![] : Fin 0 → Fin S8x64x256x256.rank)
  slices_S8x64x260x260_S8x64x256x256_0_0_0_0 : S8x64x260x260.Slices ![0, 0, 0, 0] S8x64x256x256
  slices_S8x25x256x256_S8x1x256x256_0_0_0_0 : S8x25x256x256.Slices ![0, 0, 0, 0] S8x1x256x256
  shapeCasts_S8x1x256x256_S8x256x256 : S8x1x256x256.ShapeCasts S8x256x256
  bcast_S8x256x256_S8x1x256x256_0_2_3 : S8x256x256.BroadcastsInDim S8x1x256x256 (![0, 2, 3] : Fin 3 → Fin S8x1x256x256.rank)
  bcast_S8x1x256x256_S8x64x256x256_0_1_2_3 : S8x1x256x256.BroadcastsInDim S8x64x256x256 (![0, 1, 2, 3] : Fin 4 → Fin S8x64x256x256.rank)
  slices_S8x64x260x260_S8x64x256x256_0_0_0_1 : S8x64x260x260.Slices ![0, 0, 0, 1] S8x64x256x256
  slices_S8x25x256x256_S8x1x256x256_0_1_0_0 : S8x25x256x256.Slices ![0, 1, 0, 0] S8x1x256x256
  slices_S8x64x260x260_S8x64x256x256_0_0_0_2 : S8x64x260x260.Slices ![0, 0, 0, 2] S8x64x256x256
  slices_S8x25x256x256_S8x1x256x256_0_2_0_0 : S8x25x256x256.Slices ![0, 2, 0, 0] S8x1x256x256
  slices_S8x64x260x260_S8x64x256x256_0_0_0_3 : S8x64x260x260.Slices ![0, 0, 0, 3] S8x64x256x256
  slices_S8x25x256x256_S8x1x256x256_0_3_0_0 : S8x25x256x256.Slices ![0, 3, 0, 0] S8x1x256x256
  slices_S8x64x260x260_S8x64x256x256_0_0_0_4 : S8x64x260x260.Slices ![0, 0, 0, 4] S8x64x256x256
  slices_S8x25x256x256_S8x1x256x256_0_4_0_0 : S8x25x256x256.Slices ![0, 4, 0, 0] S8x1x256x256
  slices_S8x64x260x260_S8x64x256x256_0_0_1_0 : S8x64x260x260.Slices ![0, 0, 1, 0] S8x64x256x256
  slices_S8x25x256x256_S8x1x256x256_0_5_0_0 : S8x25x256x256.Slices ![0, 5, 0, 0] S8x1x256x256
  slices_S8x64x260x260_S8x64x256x256_0_0_1_1 : S8x64x260x260.Slices ![0, 0, 1, 1] S8x64x256x256
  slices_S8x25x256x256_S8x1x256x256_0_6_0_0 : S8x25x256x256.Slices ![0, 6, 0, 0] S8x1x256x256
  slices_S8x64x260x260_S8x64x256x256_0_0_1_2 : S8x64x260x260.Slices ![0, 0, 1, 2] S8x64x256x256
  slices_S8x25x256x256_S8x1x256x256_0_7_0_0 : S8x25x256x256.Slices ![0, 7, 0, 0] S8x1x256x256
  slices_S8x64x260x260_S8x64x256x256_0_0_1_3 : S8x64x260x260.Slices ![0, 0, 1, 3] S8x64x256x256
  slices_S8x25x256x256_S8x1x256x256_0_8_0_0 : S8x25x256x256.Slices ![0, 8, 0, 0] S8x1x256x256
  slices_S8x64x260x260_S8x64x256x256_0_0_1_4 : S8x64x260x260.Slices ![0, 0, 1, 4] S8x64x256x256
  slices_S8x25x256x256_S8x1x256x256_0_9_0_0 : S8x25x256x256.Slices ![0, 9, 0, 0] S8x1x256x256
  slices_S8x64x260x260_S8x64x256x256_0_0_2_0 : S8x64x260x260.Slices ![0, 0, 2, 0] S8x64x256x256
  slices_S8x25x256x256_S8x1x256x256_0_10_0_0 : S8x25x256x256.Slices ![0, 10, 0, 0] S8x1x256x256
  slices_S8x64x260x260_S8x64x256x256_0_0_2_1 : S8x64x260x260.Slices ![0, 0, 2, 1] S8x64x256x256
  slices_S8x25x256x256_S8x1x256x256_0_11_0_0 : S8x25x256x256.Slices ![0, 11, 0, 0] S8x1x256x256
  slices_S8x64x260x260_S8x64x256x256_0_0_2_2 : S8x64x260x260.Slices ![0, 0, 2, 2] S8x64x256x256
  slices_S8x25x256x256_S8x1x256x256_0_12_0_0 : S8x25x256x256.Slices ![0, 12, 0, 0] S8x1x256x256
  slices_S8x64x260x260_S8x64x256x256_0_0_2_3 : S8x64x260x260.Slices ![0, 0, 2, 3] S8x64x256x256
  slices_S8x25x256x256_S8x1x256x256_0_13_0_0 : S8x25x256x256.Slices ![0, 13, 0, 0] S8x1x256x256
  slices_S8x64x260x260_S8x64x256x256_0_0_2_4 : S8x64x260x260.Slices ![0, 0, 2, 4] S8x64x256x256
  slices_S8x25x256x256_S8x1x256x256_0_14_0_0 : S8x25x256x256.Slices ![0, 14, 0, 0] S8x1x256x256
  slices_S8x64x260x260_S8x64x256x256_0_0_3_0 : S8x64x260x260.Slices ![0, 0, 3, 0] S8x64x256x256
  slices_S8x25x256x256_S8x1x256x256_0_15_0_0 : S8x25x256x256.Slices ![0, 15, 0, 0] S8x1x256x256
  slices_S8x64x260x260_S8x64x256x256_0_0_3_1 : S8x64x260x260.Slices ![0, 0, 3, 1] S8x64x256x256
  slices_S8x25x256x256_S8x1x256x256_0_16_0_0 : S8x25x256x256.Slices ![0, 16, 0, 0] S8x1x256x256
  slices_S8x64x260x260_S8x64x256x256_0_0_3_2 : S8x64x260x260.Slices ![0, 0, 3, 2] S8x64x256x256
  slices_S8x25x256x256_S8x1x256x256_0_17_0_0 : S8x25x256x256.Slices ![0, 17, 0, 0] S8x1x256x256
  slices_S8x64x260x260_S8x64x256x256_0_0_3_3 : S8x64x260x260.Slices ![0, 0, 3, 3] S8x64x256x256
  slices_S8x25x256x256_S8x1x256x256_0_18_0_0 : S8x25x256x256.Slices ![0, 18, 0, 0] S8x1x256x256
  slices_S8x64x260x260_S8x64x256x256_0_0_3_4 : S8x64x260x260.Slices ![0, 0, 3, 4] S8x64x256x256
  slices_S8x25x256x256_S8x1x256x256_0_19_0_0 : S8x25x256x256.Slices ![0, 19, 0, 0] S8x1x256x256
  slices_S8x64x260x260_S8x64x256x256_0_0_4_0 : S8x64x260x260.Slices ![0, 0, 4, 0] S8x64x256x256
  slices_S8x25x256x256_S8x1x256x256_0_20_0_0 : S8x25x256x256.Slices ![0, 20, 0, 0] S8x1x256x256
  slices_S8x64x260x260_S8x64x256x256_0_0_4_1 : S8x64x260x260.Slices ![0, 0, 4, 1] S8x64x256x256
  slices_S8x25x256x256_S8x1x256x256_0_21_0_0 : S8x25x256x256.Slices ![0, 21, 0, 0] S8x1x256x256
  slices_S8x64x260x260_S8x64x256x256_0_0_4_2 : S8x64x260x260.Slices ![0, 0, 4, 2] S8x64x256x256
  slices_S8x25x256x256_S8x1x256x256_0_22_0_0 : S8x25x256x256.Slices ![0, 22, 0, 0] S8x1x256x256
  slices_S8x64x260x260_S8x64x256x256_0_0_4_3 : S8x64x260x260.Slices ![0, 0, 4, 3] S8x64x256x256
  slices_S8x25x256x256_S8x1x256x256_0_23_0_0 : S8x25x256x256.Slices ![0, 23, 0, 0] S8x1x256x256
  slices_S8x64x260x260_S8x64x256x256_0_0_4_4 : S8x64x260x260.Slices ![0, 0, 4, 4] S8x64x256x256
  slices_S8x25x256x256_S8x1x256x256_0_24_0_0 : S8x25x256x256.Slices ![0, 24, 0, 0] S8x1x256x256

variable [Facts₀]

class Facts : Prop extends Facts₀ where

variable [Facts]
-- ==== Proof.ConvSpec.lean ====
/-
  Adaptive (per-pixel) 5 × 5 convolution, stated once as a function of the two argument arrays.

  The image `x` has batch 8, 64 channels and a 260 × 260 plane (a 256 × 256 plane with a halo of 4);
  the filter bank `k` holds, for every batch entry and every pixel of the 256 × 256 plane, 25 taps.
  Output pixel (b, c, h, w) is

      Σ_{n < 25}  x[b, c, h + n / 5, w + n % 5] · k[b, n, h, w],

  the terms added one after another, n = 0 first, onto a zero: a left-nested sum
  ((0 + t₀) + t₁) + … + t₂₄.  Both programs add the taps in exactly this order, so the statement
  needs no law of the arithmetic at all and is made for any float instance.
-/
import Idealize.ShloMosaic.Lib.ValueIdx

noncomputable section

namespace Cert.AdaptiveConv

open Idealize.ShloMosaic Idealize.ShloMosaic.ValueIdx

variable {F : FTy → Type} [FloatOps F]

/-- The image with its halo. -/
abbrev SImg : Shape := ⟨4, ![8, 64, 260, 260]⟩
/-- The per-pixel filter bank: 25 taps for every pixel. -/
abbrev STaps : Shape := ⟨4, ![8, 25, 256, 256]⟩
/-- The output. -/
abbrev SOut : Shape := ⟨4, ![8, 64, 256, 256]⟩

/-- Where tap `n` of output pixel `i = (b, c, h, w)` reads the image: `(b, c, n / 5 + h, n % 5 + w)`.
    (The row offset is written `n / 5 % 5` so that the index is in range for every natural `n`; for
    `n < 25` it is `n / 5`.) -/
def imgIdx (i : SOut.Idx) (n : ℕ) : SImg.Idx :=
  ix4 (n0 := 8) (n1 := 64) (n2 := 260) (n3 := 260) (i 0) (i 1)
    ⟨n / 5 % 5 + (i 2).val, by have h : (i 2).val < 256 := (i 2).isLt; omega⟩
    ⟨n % 5 + (i 3).val, by have h : (i 3).val < 256 := (i 3).isLt; omega⟩

/-- Where tap `n` of output pixel `i = (b, c, h, w)` reads the filter bank: `(b, n, h, w)`. -/
def tapIdx (i : SOut.Idx) (n : ℕ) : STaps.Idx :=
  ix4 (n0 := 8) (n1 := 25) (n2 := 256) (n3 := 256) (i 0) ⟨n % 25, Nat.mod_lt _ (by decide)⟩ (i 2) (i 3)

/-- The first `n` taps of pixel `i`, added left to right onto zero. -/
def partialSum (x : SImg.Idx → Elt F .f32) (k : STaps.Idx → Elt F .f32) (i : SOut.Idx) : ℕ → Elt F .f32
  | 0 => FloatOps.ofBits .f32 0x00000000#32
  | n + 1 => FloatOps.addf (partialSum x k i n) (FloatOps.mulf (x (imgIdx i n)) (k (tapIdx i n)))

/-- The adaptive convolution: all 25 taps. -/
def conv (x : SImg.Idx → Elt F .f32) (k : STaps.Idx → Elt F .f32) : SOut.Idx → Elt F .f32 :=
  fun i => partialSum x k i 25

/-! ## Recognising the two index functions

Both programs reach an element of an argument through their own chain of slices, reshapes and broadcasts, so an index
arrives as some function `j` whose four coordinates are known. These two lemmas say when such a `j` is the index of
tap `n`. A slice at offset zero leaves a coordinate as it is while a slice at offset `a > 0` adds `a` in front, so each moved
coordinate is offered in both spellings. -/

/-- An image index whose coordinates are `(b, c, n / 5 + h, n % 5 + w)` is tap `n`'s. -/
theorem imgIdx_ext (i : SOut.Idx) (j : SImg.Idx) (n : ℕ)
    (h0 : (j 0).val = (i 0).val) (h1 : (j 1).val = (i 1).val)
    (h2 : (j 2).val = n / 5 % 5 + (i 2).val ∨ (n / 5 % 5 = 0 ∧ (j 2).val = (i 2).val))
    (h3 : (j 3).val = n % 5 + (i 3).val ∨ (n % 5 = 0 ∧ (j 3).val = (i 3).val)) : j = imgIdx i n := by
  funext a; apply Fin.ext
  match a with
  | ⟨0, _⟩ => exact h0
  | ⟨1, _⟩ => exact h1
  | ⟨2, _⟩ =>
    show (j 2).val = n / 5 % 5 + (i 2).val
    rcases h2 with h | ⟨hz, h⟩
    · exact h
    · omega
  | ⟨3, _⟩ =>
    show (j 3).val = n % 5 + (i 3).val
    rcases h3 with h | ⟨hz, h⟩
    · exact h
    · omega

/-- A filter-bank index whose coordinates are `(b, n, h, w)`, `n < 25`, is tap `n`'s. -/
theorem tapIdx_ext (i : SOut.Idx) (j : STaps.Idx) (n : ℕ) (hn : n < 25)
    (h0 : (j 0).val = (i 0).val) (h1 : (j 1).val = n) (h2 : (j 2).val = (i 2).val) (h3 : (j 3).val = (i 3).val) :
    j = tapIdx i n := by
  funext a; apply Fin.ext
  match a with
  | ⟨0, _⟩ => exact h0
  | ⟨1, _⟩ => show (j 1).val = n % 25; rw [Nat.mod_eq_of_lt hn]; exact h1
  | ⟨2, _⟩ => exact h2
  | ⟨3, _⟩ => exact h3

end Cert.AdaptiveConv

end
-- ==== Proof.TapRead.lean ====
/-
  One tap of the kernel's body, read at an element.

  The body holds its accumulator as a [16, 256, 256] vector (16 channels of one batch entry). For each tap it loads a
  [1, 16, 256, 256] patch of the image block and a [1, 1, 256, 256] plane of the filter bank, drops the patch's leading
  unit axis, views the plane as [256, 256] and then as [1, 256, 256], broadcasts it over the 16 channels, multiplies and
  adds. At element (c, h, w) all of this reads the patch at (0, c, h, w) and the plane at (0, 0, h, w): every step is a
  re-labelling of positions that keeps the row-major order, or a copy along the channel axis.
-/
import Idealize.ShloMosaic.Lib.Pipeline.Value
import Idealize.ShloMosaic.Lib.ValueIdx

noncomputable section

namespace Cert.AdaptiveConv

open Idealize.ShloMosaic Idealize.ShloMosaic.ValueIdx

/-- A loaded image patch: one batch entry, 16 channels. -/
abbrev SPatch : Shape := ⟨4, ![1, 16, 256, 256]⟩
/-- The accumulator: the patch without its unit axis. -/
abbrev SAcc : Shape := ⟨3, ![16, 256, 256]⟩
/-- A loaded filter plane: one batch entry, one tap. -/
abbrev SPlane4 : Shape := ⟨4, ![1, 1, 256, 256]⟩
/-- The plane as a matrix. -/
abbrev SPlane2 : Shape := ⟨2, ![256, 256]⟩
/-- The plane with one unit axis, ready to be broadcast over the channels. -/
abbrev SPlane3 : Shape := ⟨3, ![1, 256, 256]⟩

section Layout
variable {α : Type}

/-- Dropping the patch's unit axis: element (c, h, w) is the patch's (0, c, h, w). -/
theorem patch_at (P : SPatch.Idx → α) (hc : SPatch.ShapeCasts SAcc) (c : Fin 16) (h w : Fin 256) :
    shapeCast SAcc P hc (ix3 c h w) = P (ix4 (0 : Fin 1) c h w) := by
  refine shapeCast_apply P hc (ix3 c h w) (ix4 (0 : Fin 1) c h w) ?_
  rw [Shape.rowMajor_val_four, Shape.rowMajor_val_three]
  show ((0 * 16 + c.val) * 256 + h.val) * 256 + w.val = (c.val * 256 + h.val) * 256 + w.val
  omega

/-- The plane viewed as a matrix: element (h, w) is the plane's (0, 0, h, w). -/
theorem plane2_at (Q : SPlane4.Idx → α) (hc : SPlane4.ShapeCasts SPlane2) (h w : Fin 256) :
    shapeCast SPlane2 Q hc (ix2 h w) = Q (ix4 (0 : Fin 1) (0 : Fin 1) h w) := by
  refine shapeCast_apply Q hc (ix2 h w) (ix4 (0 : Fin 1) (0 : Fin 1) h w) ?_
  rw [Shape.rowMajor_val_four, Shape.rowMajor_val_two]
  show ((0 * 1 + 0) * 256 + h.val) * 256 + w.val = h.val * 256 + w.val
  omega

/-- The matrix given a leading unit axis: element (0, h, w) is the matrix's (h, w). -/
theorem plane3_at (R : SPlane2.Idx → α) (hc : SPlane2.ShapeCasts SPlane3) (z : Fin 1) (h w : Fin 256) :
    shapeCast SPlane3 R hc (ix3 z h w) = R (ix2 h w) := by
  refine shapeCast_apply R hc (ix3 z h w) (ix2 h w) ?_
  rw [Shape.rowMajor_val_two, Shape.rowMajor_val_three]
  show h.val * 256 + w.val = (z.val * 256 + h.val) * 256 + w.val
  have hz : z.val < 1 := z.isLt
  omega

/-- The plane copied along the channel axis: element (c, h, w) is the plane's (0, h, w), whatever c. -/
theorem planes_at (T : SPlane3.Idx → α) (hb : SPlane3.Broadcasts SAcc) (c : Fin 16) (h w : Fin 256) :
    broadcastTo SAcc T hb (ix3 c h w) = T (ix3 (0 : Fin 1) h w) := by
  refine broadcastTo_apply T hb (ix3 c h w) (ix3 (0 : Fin 1) h w) fun a => ?_
  match a with
  | ⟨0, _⟩ => show (0 : ℕ) = if (1 : ℕ) = 1 then 0 else c.val; rw [if_pos rfl]
  | ⟨1, _⟩ => show h.val = if (256 : ℕ) = 1 then 0 else h.val; rw [if_neg (by decide)]
  | ⟨2, _⟩ => show w.val = if (256 : ℕ) = 1 then 0 else w.val; rw [if_neg (by decide)]

/-- The finished accumulator given back its unit axis for the store: element (0, c, h, w) is the accumulator's (c, h, w). -/
theorem stored_at (A : SAcc.Idx → α) (hc : SAcc.ShapeCasts SPatch) (z : Fin 1) (c : Fin 16) (h w : Fin 256) :
    shapeCast SPatch A hc (ix4 z c h w) = A (ix3 c h w) := by
  refine shapeCast_apply A hc (ix4 z c h w) (ix3 c h w) ?_
  rw [Shape.rowMajor_val_three, Shape.rowMajor_val_four]
  show (c.val * 256 + h.val) * 256 + w.val = ((z.val * 16 + c.val) * 256 + h.val) * 256 + w.val
  have hz : z.val < 1 := z.isLt
  omega

end Layout

variable {F : FTy → Type} [FloatOps F]

/-- ONE TAP at element (c, h, w): the accumulator there, plus the patch at (0, c, h, w) times the plane at
    (0, 0, h, w). -/
theorem tap_at (acc : FVec F SAcc .f32) (P : Vec F SPatch .f32) (Q : Vec F SPlane4 .f32)
    (h1 : SPatch.ShapeCasts SAcc) (h2 : SPlane4.ShapeCasts SPlane2) (h3 : SPlane2.ShapeCasts SPlane3)
    (hb : SPlane3.Broadcasts SAcc) (c : Fin 16) (h w : Fin 256) :
    addf acc (mulf (shapeCast SAcc P h1) (broadcastTo SAcc (shapeCast SPlane3 (shapeCast SPlane2 Q h2) h3) hb)) (ix3 c h w)
      = FloatOps.addf (acc (ix3 c h w)) (FloatOps.mulf (P (ix4 (0 : Fin 1) c h w)) (Q (ix4 (0 : Fin 1) (0 : Fin 1) h w))) := by
  show FloatOps.addf (acc (ix3 c h w)) (FloatOps.mulf (shapeCast SAcc P h1 (ix3 c h w))
    (broadcastTo SAcc (shapeCast SPlane3 (shapeCast SPlane2 Q h2) h3) hb (ix3 c h w))) = _
  rw [patch_at, planes_at, plane3_at, plane2_at]

/-! ## The body's 25 taps inside one block

A grid point sees a [1, 16, 260, 260] block of the image (one batch entry, 16 channels, the whole plane with its halo)
and the [1, 25, 256, 256] block of the filter bank (the same batch entry, all taps). Tap `n` of element (c, h, w) reads
the image block at (0, c, n / 5 + h, n % 5 + w) and the filter block at (0, n, h, w). -/

/-- The image block a grid point works on. -/
abbrev SImgBlock : Shape := ⟨4, ![1, 16, 260, 260]⟩
/-- The filter-bank block a grid point works on. -/
abbrev STapsBlock : Shape := ⟨4, ![1, 25, 256, 256]⟩

/-- Where tap `n` of element (c, h, w) reads the image block. -/
def patchIdx (c : Fin 16) (h w : Fin 256) (n : ℕ) : SImgBlock.Idx :=
  ix4 (n0 := 1) (n1 := 16) (n2 := 260) (n3 := 260) 0 c
    ⟨n / 5 % 5 + h.val, by have := h.isLt; omega⟩ ⟨n % 5 + w.val, by have := w.isLt; omega⟩

/-- Where tap `n` of element (c, h, w) reads the filter block. -/
def planeIdx (h w : Fin 256) (n : ℕ) : STapsBlock.Idx :=
  ix4 (n0 := 1) (n1 := 25) (n2 := 256) (n3 := 256) 0 ⟨n % 25, Nat.mod_lt _ (by decide)⟩ h w

/-- An image-block index with coordinates (0, c, n / 5 + h, n % 5 + w) is `patchIdx c h w n`. -/
theorem patchIdx_ext (c : Fin 16) (h w : Fin 256) (j : SImgBlock.Idx) (n : ℕ)
    (h1 : (j 1).val = c.val) (h2 : (j 2).val = n / 5 % 5 + h.val) (h3 : (j 3).val = n % 5 + w.val) :
    j = patchIdx c h w n := by
  funext a; apply Fin.ext
  match a with
  | ⟨0, _⟩ => show (j 0).val = 0; have : (j 0).val < 1 := (j 0).isLt; omega
  | ⟨1, _⟩ => exact h1
  | ⟨2, _⟩ => exact h2
  | ⟨3, _⟩ => exact h3

/-- A filter-block index with coordinates (0, n, h, w), `n < 25`, is `planeIdx h w n`. -/
theorem planeIdx_ext (h w : Fin 256) (j : STapsBlock.Idx) (n : ℕ) (hn : n < 25)
    (h1 : (j 1).val = n) (h2 : (j 2).val = h.val) (h3 : (j 3).val = w.val) : j = planeIdx h w n := by
  funext a; apply Fin.ext
  match a with
  | ⟨0, _⟩ => show (j 0).val = 0; have : (j 0).val < 1 := (j 0).isLt; omega
  | ⟨1, _⟩ => show (j 1).val = n % 25; rw [Nat.mod_eq_of_lt hn]; exact h1
  | ⟨2, _⟩ => exact h2
  | ⟨3, _⟩ => exact h3

/-- A load of the image block through the 256 × 256 window at offset (a, b) of the plane, all 16 channels, read at
    (0, c, h, w), reads the block at tap `n`'s place when (a, b) = (n / 5, n % 5). -/
theorem patch_load_idx (c : Fin 16) (h w : Fin 256) (a b : ℕ) (inb : ∀ d, (![0, 0, a, b] : Fin 4 → ℕ) d + SPatch.size d ≤ SImgBlock.size d)
    (n : ℕ) (ea : a = n / 5 % 5) (eb : b = n % 5) :
    (Rect.unit (s := SImgBlock) ![0, 0, a, b] SPatch.size inb).toLoadRect.idx (ix4 (0 : Fin 1) c h w) = patchIdx c h w n := by
  subst ea eb
  refine patchIdx_ext c h w _ n ?_ ?_ ?_
  · show 0 + 1 * c.val = c.val; omega
  · show n / 5 % 5 + 1 * h.val = n / 5 % 5 + h.val; omega
  · show n % 5 + 1 * w.val = n % 5 + w.val; omega

/-- A load of plane `a` of the filter block, read at (0, 0, h, w), reads the block at tap `n`'s place when a = n. -/
theorem plane_load_idx (h w : Fin 256) (a : ℕ) (inb : ∀ d, (![0, a, 0, 0] : Fin 4 → ℕ) d + SPlane4.size d ≤ STapsBlock.size d)
    (n : ℕ) (hn : n < 25) (ea : a = n) :
    (Rect.unit (s := STapsBlock) ![0, a, 0, 0] SPlane4.size inb).toLoadRect.idx (ix4 (0 : Fin 1) (0 : Fin 1) h w) = planeIdx h w n := by
  subst ea
  refine planeIdx_ext h w _ a hn ?_ ?_ ?_
  · show a + 1 * 0 = a; omega
  · show 0 + 1 * h.val = h.val; omega
  · show 0 + 1 * w.val = w.val; omega

/-- The first `n` taps of element (c, h, w), read off the two blocks and added left to right onto zero. -/
def blockSum (X : SImgBlock.Idx → Elt F .f32) (K : STapsBlock.Idx → Elt F .f32) (c : Fin 16) (h w : Fin 256) : ℕ → Elt F .f32
  | 0 => FloatOps.ofBits .f32 0x00000000#32
  | n + 1 => FloatOps.addf (blockSum X K c h w n) (FloatOps.mulf (X (patchIdx c h w n)) (K (planeIdx h w n)))

end Cert.AdaptiveConv

end
-- ==== Proof.BlockConv.lean ====
/-
  A block's taps are the array's taps.

  Grid point (b, q) works on batch entry `b` and channels `16 q … 16 q + 15`: its image block is the array's
  `[b, 16 q + ·, ·, ·]`, its filter block the array's `[b, ·, ·, ·]`. So the sum the body forms for element (c, h, w) of its
  block is the adaptive convolution's sum for pixel (b, 16 q + c, h, w) of the array, tap by tap.
-/
import proofs.«101768_j79972291051911_1_alg».proof.Proof.ConvSpec
import proofs.«101768_j79972291051911_1_alg».proof.Proof.TapRead

noncomputable section

namespace Cert.AdaptiveConv

open Idealize.ShloMosaic Idealize.ShloMosaic.ValueIdx

variable {F : FTy → Type} [FloatOps F]

/-- Element `z` of grid point (b, q)'s image block, as an index of the image. -/
def imgOfBlock (b : Fin 8) (q : Fin 4) (z : SImgBlock.Idx) : SImg.Idx :=
  ix4 (n0 := 8) (n1 := 64) (n2 := 260) (n3 := 260) b
    ⟨q.val * 16 + (z 1).val, by have h1 : (z 1).val < 16 := (z 1).isLt; have := q.isLt; omega⟩ (z 2) (z 3)

/-- Element `z` of grid point (b, q)'s filter block, as an index of the filter bank. -/
def tapsOfBlock (b : Fin 8) (z : STapsBlock.Idx) : STaps.Idx :=
  ix4 (n0 := 8) (n1 := 25) (n2 := 256) (n3 := 256) b (z 1) (z 2) (z 3)

/-- Element (c, h, w) of grid point (b, q)'s output block, as an index of the output. -/
def outOfBlock (b : Fin 8) (q : Fin 4) (c : Fin 16) (h w : Fin 256) : SOut.Idx :=
  ix4 (n0 := 8) (n1 := 64) (n2 := 256) (n3 := 256) b ⟨q.val * 16 + c.val, by have := c.isLt; have := q.isLt; omega⟩ h w

/-- Blocks that are the arrays' blocks give the arrays' partial sums. -/
theorem blockSum_eq_partialSum (x : SImg.Idx → Elt F .f32) (k : STaps.Idx → Elt F .f32)
    (X : SImgBlock.Idx → Elt F .f32) (K : STapsBlock.Idx → Elt F .f32) (b : Fin 8) (q : Fin 4)
    (hX : ∀ z, X z = x (imgOfBlock b q z)) (hK : ∀ z, K z = k (tapsOfBlock b z))
    (c : Fin 16) (h w : Fin 256) (n : ℕ) :
    blockSum X K c h w n = partialSum x k (outOfBlock b q c h w) n := by
  induction n with
  | zero => rfl
  | succ n ih =>
    show FloatOps.addf (blockSum X K c h w n) (FloatOps.mulf (X (patchIdx c h w n)) (K (planeIdx h w n)))
      = FloatOps.addf (partialSum x k (outOfBlock b q c h w) n)
          (FloatOps.mulf (x (imgIdx (outOfBlock b q c h w) n)) (k (tapIdx (outOfBlock b q c h w) n)))
    rw [ih, hX, hK]
    have e1 : imgOfBlock b q (patchIdx c h w n) = imgIdx (outOfBlock b q c h w) n :=
      imgIdx_ext _ _ n rfl rfl (Or.inl rfl) (Or.inl rfl)
    have e2 : tapsOfBlock b (planeIdx h w n) = tapIdx (outOfBlock b q c h w) n := by
      funext a; apply Fin.ext
      match a with
      | ⟨0, _⟩ => rfl
      | ⟨1, _⟩ => rfl
      | ⟨2, _⟩ => rfl
      | ⟨3, _⟩ => rfl
    rw [e1, e2]

end Cert.AdaptiveConv

end
-- ==== Proof.KernelBody.lean ====
/-
  What the kernel leaves in its output array: the adaptive convolution of its two arguments.

  The body at a grid point forms, for every element (c, h, w) of its [1, 16, 256, 256] output block, the 25 taps'
  left-to-right sum read off the point's image block and filter block (`body_at`); the blocks are the arrays' blocks
  (batch entry b, channels 16 q … 16 q + 15 at grid point (b, q)), so that sum is the array's (`flushed_eq`); and
  the 32 output blocks tile the output array (`covered`). Hence the array after the run (`final`, `run`).
-/
import proofs.«101768_j79972291051911_1_alg».proof.Proof.Gen.KernelIdeal.Frame
import proofs.«101768_j79972291051911_1_alg».proof.Proof.BlockConv
import Idealize.ShloMosaic.Lib.Pipeline.Value

set_option maxRecDepth 16384

noncomputable section

namespace Cert.AdaptiveConv.Kernel

open Cert.KernelIdeal Cert.KernelIdeal.Gen Idealize.ShloMosaic Idealize.ShloMosaic.TcCoe Idealize.SL.Sem
open Idealize.ShloMosaic.ValueIdx Cert.AdaptiveConv
open Idealize.ShloMosaic.Pipeline (Dat)

variable {F : FTy → Type} [FloatOps F]

theorem zero_offsets : (![0, 0, 0, 0] : Fin 4 → Nat) = fun _ => 0 := funext fun a => by fin_cases a <;> rfl

/-! ## The body at one element -/

set_option hygiene false in
/-- Tap `n` of the unrolled body against tap `n` of `blockSum`: the same sum so far, the image block read through the
    window at offset (n / 5, n % 5), the filter block read at plane n. -/
local macro "tap " n:num : tactic => `(tactic|
  refine congrArg₂ FloatOps.addf ?_ (congrArg₂ FloatOps.mulf
    (congrArg X (patch_load_idx c h w _ _ _ $n rfl rfl))
    (congrArg K (plane_load_idx h w _ _ $n (by decide) rfl))))

/-- What the body's one store leaves at element (0, c, h, w) of the output block: the 25 taps of that element, read off
    the image block `X` and the filter block `K`, added left to right onto zero. -/
theorem body_at (X : Vec F S1x16x260x260 .f32) (K : Vec F S1x25x256x256 .f32) (c : Fin 16) (h w : Fin 256) :
    out0_2 X K (ix4 (0 : Fin 1) c h w) = blockSum X K c h w 25 := by
  unfold out0_2
  rw [View.canon_unit_zero zero_offsets]
  unfold k0_pay1 k0_pay2 k0_pay3 k0_pay4 k0_pay5 k0_pay6 k0_pay7 k0_pay8 k0_pay9 k0_pay10 k0_pay11
  dsimp only
  rw [stored_at]
  simp only [tap_at]
  simp only [blockSum]
  tap 24
  tap 23
  tap 22
  tap 21
  tap 20
  tap 19
  tap 18
  tap 17
  tap 16
  tap 15
  tap 14
  tap 13
  tap 12
  tap 11
  tap 10
  tap 9
  tap 8
  tap 7
  tap 6
  tap 5
  tap 4
  tap 3
  tap 2
  tap 1
  tap 0
  rfl

/-! ## The grid: which blocks a point works on -/

variable (m : (ℓ : Loc nD τ sig) → Buf (Elt F) ℓ) (ρ : Dev nD → PrngReg)

/-- The printed index maps, decided over the 32 grid points: at a point whose output block is (b, q, 0, 0) the image
    block is (b, q, 0, 0) and the filter block (b, 0, 0, 0), with b < 8 and q < 4. -/
theorem index_maps : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = 0
    ∧ win0_1.index t (2 : Fin 4) = 0 ∧ win0_1.index t (3 : Fin 4) = 0
    ∧ win0_2.index t (0 : Fin 4) < 8 ∧ win0_2.index t (1 : Fin 4) < 4
    ∧ win0_2.index t (2 : Fin 4) = 0 ∧ win0_2.index t (3 : Fin 4) = 0 :=
  (by decide +kernel : ∀ t : Fin grid0.N, _)

/-- Every pair (b, q) is some grid point's output block. -/
theorem index_onto : ∀ (b : Fin 8) (q : Fin 4), ∃ t : Fin cfg0.N, win0_2.index t = ![b.val, q.val, 0, 0] :=
  (by decide +kernel : ∀ (b : Fin 8) (q : Fin 4), ∃ t : Fin grid0.N, win0_2.index t = ![b.val, q.val, 0, 0])

/-- The image block at point `t` is the image array's block (b, q): batch entry b, channels 16 q … 16 q + 15. -/
theorem image_block (c : Dev nD) (t : Fin cfg0.N) (hb : win0_2.index t (0 : Fin 4) < 8) (hq : win0_2.index t (1 : Fin 4) < 4)
    (z : S1x16x260x260.Idx) :
    (iblk m c 0 t : Vec F S1x16x260x260 .f32) z
      = (V m c main_arg0 : S8x64x260x260.Idx → Elt F .f32) (imgOfBlock ⟨win0_2.index t (0 : Fin 4), hb⟩ ⟨win0_2.index t (1 : Fin 4), hq⟩ z) := by
  obtain ⟨e00, e01, e02, e03, -⟩ := index_maps t
  unfold iblk
  rw [View.read_apply]
  show V m c main_arg0 _ = V m c main_arg0 _
  congr 1
  funext a
  apply Fin.ext
  have z0 : (z 0).val < 1 := (z 0).isLt
  match a with
  | ⟨0, _⟩ => show win0_0.index t (0 : Fin 4) * 1 + 1 * (z 0).val = win0_2.index t (0 : Fin 4); omega
  | ⟨1, _⟩ => show win0_0.index t (1 : Fin 4) * 16 + 1 * (z 1).val = win0_2.index t (1 : Fin 4) * 16 + (z 1).val; omega
  | ⟨2, _⟩ => show win0_0.index t (2 : Fin 4) * 260 + 1 * (z 2).val = (z 2).val; omega
  | ⟨3, _⟩ => show win0_0.index t (3 : Fin 4) * 260 + 1 * (z 3).val = (z 3).val; omega

/-- The filter block at point `t` is the filter bank's block b: batch entry b, all taps. -/
theorem taps_block (c : Dev nD) (t : Fin cfg0.N) (hb : win0_2.index t (0 : Fin 4) < 8) (z : S1x25x256x256.Idx) :
    (iblk m c 1 t : Vec F S1x25x256x256 .f32) z
      = (V m c main_arg1 : S8x25x256x256.Idx → Elt F .f32) (tapsOfBlock ⟨win0_2.index t (0 : Fin 4), hb⟩ z) := by
  obtain ⟨-, -, -, -, e10, e11, e12, e13, -⟩ := index_maps t
  unfold iblk
  rw [View.read_apply]
  show V m c main_arg1 _ = V m c main_arg1 _
  congr 1
  funext a
  apply Fin.ext
  have z0 : (z 0).val < 1 := (z 0).isLt
  match a with
  | ⟨0, _⟩ => show win0_1.index t (0 : Fin 4) * 1 + 1 * (z 0).val = win0_2.index t (0 : Fin 4); omega
  | ⟨1, _⟩ => show win0_1.index t (1 : Fin 4) * 25 + 1 * (z 1).val = (z 1).val; omega
  | ⟨2, _⟩ => show win0_1.index t (2 : Fin 4) * 256 + 1 * (z 2).val = (z 2).val; omega
  | ⟨3, _⟩ => show win0_1.index t (3 : Fin 4) * 256 + 1 * (z 3).val = (z 3).val; omega

/-! ## What a point writes back, and the array after the run -/

/-- WHAT POINT `t` WRITES BACK is block `t` of the adaptive convolution of the two argument arrays. -/
theorem flushed_eq (c : Dev nD) (t : Fin cfg0.N) :
    (dats m 0 c).flushed 2 t
      = ((cfg0.win 2).blk t).view.read (Elt F) (conv (V m c main_arg0) (V m c main_arg1)) := by
  show (cfg0.win 2).cut (grid0.coords t) ((dats m 0 c).after 2 t) = _
  rw [after0_2]
  obtain ⟨-, -, -, -, -, -, -, -, hb, hq, e22, e23⟩ := index_maps t
  funext j
  obtain ⟨z, cc, h, w, rfl⟩ : ∃ (z : Fin 1) (cc : Fin 16) (h w : Fin 256), j = ix4 z cc h w :=
    ⟨j 0, j 1, j 2, j 3, eq_ix4 (n0 := 1) (n1 := 16) (n2 := 256) (n3 := 256) j⟩
  obtain rfl : z = 0 := Subsingleton.elim _ _
  show out0_2 (iblk m c 0 t) (iblk m c 1 t) (ix4 (0 : Fin 1) cc h w)
    = conv (V m c main_arg0) (V m c main_arg1) (((cfg0.win 2).blk t).view.emb (ix4 (0 : Fin 1) cc h w))
  refine (body_at (iblk m c 0 t) (iblk m c 1 t) cc h w).trans ?_
  refine (blockSum_eq_partialSum (V m c main_arg0) (V m c main_arg1) (iblk m c 0 t) (iblk m c 1 t)
    ⟨win0_2.index t (0 : Fin 4), hb⟩ ⟨win0_2.index t (1 : Fin 4), hq⟩
    (image_block m c t hb hq) (taps_block m c t hb) cc h w 25).trans ?_
  show conv (V m c main_arg0) (V m c main_arg1) _ = conv (V m c main_arg0) (V m c main_arg1) _
  congr 1
  funext a
  apply Fin.ext
  match a with
  | ⟨0, _⟩ => show win0_2.index t (0 : Fin 4) = win0_2.index t (0 : Fin 4) * 1 + 1 * 0; omega
  | ⟨1, _⟩ => show win0_2.index t (1 : Fin 4) * 16 + cc.val = win0_2.index t (1 : Fin 4) * 16 + 1 * cc.val; omega
  | ⟨2, _⟩ => show h.val = win0_2.index t (2 : Fin 4) * 256 + 1 * h.val; omega
  | ⟨3, _⟩ => show w.val = win0_2.index t (3 : Fin 4) * 256 + 1 * w.val; omega

/-- An index of the output array is in point `t`'s block iff each coordinate is in the block's range on its axis. -/
theorem mem_block (t : Fin cfg0.N) (i : S8x64x256x256.Idx) :
    i ∈ ((cfg0.win 2).blk t).view.set ↔ ∀ a : Fin 4, win0_2.index t a * S1x16x256x256.size a ≤ (i a).val ∧ (i a).val < win0_2.index t a * S1x16x256x256.size a + S1x16x256x256.size a := by
  show i ∈ ((View.whole main_v0).slice (win0_2.rect t)).set ↔ _
  rw [View.set_slice_whole, Rect.mem_set_unit]
  exact Iff.rfl

/-- The 32 output blocks tile the output array: pixel (b, ch, h, w) is in the block of the point (b, ch / 16). -/
theorem covered (i : S8x64x256x256.Idx) :
    ∃ t : Fin cfg0.N, (cfg0.win 2).flush t = true ∧ i ∈ ((cfg0.win 2).blk t).view.set := by
  have hi0 : (i 0).val < 8 := (i 0).isLt
  have hi1 : (i 1).val < 64 := (i 1).isLt
  have hi2 : (i 2).val < 256 := (i 2).isLt
  have hi3 : (i 3).val < 256 := (i 3).isLt
  obtain ⟨t, ht⟩ := index_onto ⟨(i 0).val, hi0⟩ ⟨(i 1).val / 16, by omega⟩
  have q0 : win0_2.index t (0 : Fin 4) = (i 0).val := congrFun ht 0
  have q1 : win0_2.index t (1 : Fin 4) = (i 1).val / 16 := congrFun ht 1
  have q2 : win0_2.index t (2 : Fin 4) = 0 := congrFun ht 2
  have q3 : win0_2.index t (3 : Fin 4) = 0 := congrFun ht 3
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 256 ≤ (i 2).val ∧ (i 2).val < win0_2.index t (2 : Fin 4) * 256 + 256; omega
  | ⟨3, _⟩ => show win0_2.index t (3 : Fin 4) * 256 ≤ (i 3).val ∧ (i 3).val < win0_2.index t (3 : Fin 4) * 256 + 256; omega

/-- THE OUTPUT ARRAY after the run is the adaptive convolution of the argument arrays as launched. -/
theorem final (c : Dev nD) :
    (dats m 0 c).arrAt 2 cfg0.N = conv (m ((c : Thread nD τ).loc main_arg0)) (m ((c : Thread nD τ).loc main_arg1)) :=
  (dats m 0 c).arrAt_eq_of_cover 2 (conv (V m c main_arg0) (V m c main_arg1)) (fun t _ => flushed_eq m c t) covered

/-- The kernel's run, read: the output array ends at the adaptive convolution of the arguments, the arguments unchanged
    (each argument is staged by an input window, which never writes it back). -/
theorem run : θ_run defs (onTc (τ := τ) (main (F := F))) ⟨m, fun _ => 0, ρ⟩ fun r => ∀ c : Dev nD,
      r.2.mem ((c : Thread nD τ).loc main_v0) = conv (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.AdaptiveConv.Kernel

end
-- ==== Proof.RefConv.lean ====
/-
  The reference computes the adaptive convolution.

  Its program starts from a zero array and, for tap n = 0, 1, …, 24 in turn, slices the image at offset (n / 5, n % 5) of
  the plane, slices plane n of the filter bank, gives that plane a channel axis of extent one by a reshape and two
  broadcasts, multiplies and adds onto what it has. Read at an output pixel (b, c, h, w) every one of these
  whole-array operations touches one element, and what is left is the left-to-right sum of the 25 products.
-/
import proofs.«101768_j79972291051911_1_alg».proof.Proof.RefRead
import proofs.«101768_j79972291051911_1_alg».proof.Proof.ConvSpec

noncomputable section

namespace Cert.AdaptiveConv.Reference

open Cert.ReferenceIdeal Cert.ReferenceIdeal.ReadP Idealize.ShloMosaic Idealize.ShloMosaic.ValueIdx Cert.AdaptiveConv

variable {F : FTy → Type} [FloatOps F]

open Lean Elab Tactic in
/-- Reads every operation of the reference at an index: rewrites with the read-at-an-index lemma of each of its 177
    operations (the constant, then results 0 to 175), so that what is left of the result at a pixel is scalar arithmetic
    over the two arguments at composed indices. -/
elab "read_every_operation" : tactic => do
  let names : Array Name := #[`Cert.ReferenceIdeal.ReadP.val_main_cst_apply] ++
    (Array.range 176).map fun n => Name.str `Cert.ReferenceIdeal.ReadP s!"val_main_v{n}_apply"
  let lemmas ← names.mapM fun n => `(Lean.Parser.Tactic.simpLemma| $(mkIdent n):term)
  evalTactic (← `(tactic| simp only [$lemmas,*]))

/-- The filter plane reaches a pixel through a reshape [8, 1, 256, 256] → [8, 256, 256] and two broadcasts; the
    reshape names the source position by its row-major rank (b · 256 + h) · 256 + w, split again by division. A
    filter-bank index with those coordinates, and `n` on the tap axis, is tap `n`'s index. -/
theorem tapIdx_of_rank (i : SOut.Idx) (j : STaps.Idx) (n : ℕ) (hn : n < 25)
    (h0 : (j 0).val = (((i 0).val * 256 + (i 2).val) * 256 + (i 3).val) / 65536)
    (h1 : (j 1).val = n)
    (h2 : (j 2).val = (((i 0).val * 256 + (i 2).val) * 256 + (i 3).val) / 256 % 256)
    (h3 : (j 3).val = (((i 0).val * 256 + (i 2).val) * 256 + (i 3).val) % 256) : j = tapIdx i n := by
  have b0 : (i 0).val < 8 := (i 0).isLt
  have b2 : (i 2).val < 256 := (i 2).isLt
  have b3 : (i 3).val < 256 := (i 3).isLt
  exact tapIdx_ext i j n hn (by omega) h1 (by omega) (by omega)

set_option hygiene false in
/-- Tap `n` of the reference's chain against tap `n` of `partialSum`: the same sum so far, the image read through the
    slice at offset (n / 5, n % 5) (an offset of zero leaves the coordinate as it is), the filter bank at plane n. -/
local macro "tap " n:num : tactic => `(tactic|
  refine congrArg₂ FloatOps.addf ?_ (congrArg₂ FloatOps.mulf
    (congrArg x0 (imgIdx_ext i _ $n rfl rfl
      (by first | exact Or.inl rfl | exact Or.inr ⟨rfl, rfl⟩) (by first | exact Or.inl rfl | exact Or.inr ⟨rfl, rfl⟩)))
    (congrArg x1 (tapIdx_of_rank i _ $n (by decide) rfl rfl rfl rfl))))

/-- The reference's result, as a function of its two arguments, is the adaptive convolution. -/
theorem result_eq_conv (x0 : (⟨S8x64x260x260, .f32⟩ : BufTy).Contents (Elt F)) (x1 : (⟨S8x25x256x256, .f32⟩ : BufTy).Contents (Elt F)) :
    val_main_v175 (F := F) x0 x1 = conv x0 x1 := by
  funext i
  read_every_operation
  show _ = partialSum x0 x1 i 25
  simp only [partialSum]
  tap 24
  tap 23
  tap 22
  tap 21
  tap 20
  tap 19
  tap 18
  tap 17
  tap 16
  tap 15
  tap 14
  tap 13
  tap 12
  tap 11
  tap 10
  tap 9
  tap 8
  tap 7
  tap 6
  tap 5
  tap 4
  tap 3
  tap 2
  tap 1
  tap 0
  rfl

end Cert.AdaptiveConv.Reference

end
-- ==== Proof.RefRunConv.lean ====
/-
  The reference's run ends at the adaptive convolution of its arguments.

  The run leaves the result buffer at the operations' composed term over the launch contents of the two arguments; that
  term is, operation for operation, the last stage of the program read one operation at a time, which is the adaptive
  convolution (`result_eq_conv`).
-/
import proofs.«101768_j79972291051911_1_alg».proof.Proof.RefRun
import proofs.«101768_j79972291051911_1_alg».proof.Proof.RefConv

set_option maxRecDepth 8192

noncomputable section

namespace Cert.AdaptiveConv.Reference

open Cert.ReferenceIdeal Cert.ReferenceIdeal.ReadP Cert.ReferenceIdeal.ValueP Idealize.ShloMosaic Idealize.ShloMosaic.TcCoe Idealize.SL.Sem
open Idealize.ShloMosaic.StableHlo Cert.AdaptiveConv

variable {F : FTy → Type} [FloatOps F]

/-- On every device: every weakly fair execution of the reference terminates with its result at the adaptive
    convolution of the two arguments as launched, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v175)
        = conv (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans
      ((show _ = val_main_v175 (F := F) (m ((c.tc : Thread nD τ).loc main_arg0)) (m ((c.tc : Thread nD τ).loc main_arg1)) from by
          unfold res_main_v126 res_main_v63; rfl).trans
        (result_eq_conv _ _)), (h c).2⟩)
    (Cert.ReferenceIdeal.ValueP.run m ρ)

end Cert.AdaptiveConv.Reference

end
-- ==== Proof.lean ====
/-
  The certificate of a per-pixel adaptive 5 × 5 convolution.

  For an image `x` : f32[8, 64, 260, 260] (a 256 × 256 plane with a halo of 4) and per-pixel filters
  `k` : f32[8, 25, 256, 256], both programs compute

      out[b, c, h, w] = Σ_{n < 25} x[b, c, h + n / 5, w + n % 5] · k[b, n, h, w],

  adding the 25 products one after another, tap 0 first, onto zero (Proof/ConvSpec.lean states it once, `conv`).
  The kernel does so on a grid of 8 × 4 points, each working on one batch entry and 16 channels with the whole plane
  resident; the reference does so by 25 whole-array slices, multiplications and additions. Since the two add the
  same products in the same order, their results are one function of the arguments term by term: no law of the
  arithmetic is used, finiteness of the inputs included.

  Proof/KernelBody.lean reads the kernel's output array after its run as `conv` of the arguments; Proof/RefRunConv.lean
  reads the reference's result as `conv` of the arguments. Here the two are set side by side.
-/
import proofs.«101768_j79972291051911_1_alg».proof.Defs
import proofs.«101768_j79972291051911_1_alg».proof.Proof.Gen.Kernel
import proofs.«101768_j79972291051911_1_alg».proof.Proof.Gen.Kernel.Skeleton
import proofs.«101768_j79972291051911_1_alg».proof.Proof.Gen.Kernel.Launch
import proofs.«101768_j79972291051911_1_alg».proof.Proof.Gen.Kernel.Points
import proofs.«101768_j79972291051911_1_alg».proof.Proof.Gen.Kernel.Frame
import proofs.«101768_j79972291051911_1_alg».proof.Proof.Gen.KernelIdeal
import proofs.«101768_j79972291051911_1_alg».proof.Proof.Gen.KernelIdeal.Skeleton
import proofs.«101768_j79972291051911_1_alg».proof.Proof.Gen.KernelIdeal.Launch
import proofs.«101768_j79972291051911_1_alg».proof.Proof.Gen.KernelIdeal.Points
import proofs.«101768_j79972291051911_1_alg».proof.Proof.Gen.KernelIdeal.Frame
import proofs.«101768_j79972291051911_1_alg».proof.Proof.Gen.ReferenceIdeal
import proofs.«101768_j79972291051911_1_alg».proof.Proof.Gen.Pre_finite_inputs
import proofs.«101768_j79972291051911_1_alg».proof.Proof.KernelBody
import proofs.«101768_j79972291051911_1_alg».proof.Proof.RefRunConv
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as they were: its run with the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.AdaptiveConv.Reference.run (F := Ideal) m ρ)

/-- At the extended reals, from memories that agree on the two arguments, the kernel's output array and the
    reference's result both end at the adaptive convolution of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.AdaptiveConv.conv (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.AdaptiveConv.Kernel.run (F := Ideal) m ρ, ?_⟩
  refine (θ_run Cert.ReferenceIdeal.defs _ _).mono (fun _ h c => ⟨(h c).1.trans ?_, (h c).2⟩)
    (Cert.AdaptiveConv.Reference.run (F := Ideal) m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
